-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S10x2048 : Shape := ⟨2, ![10, 2048]⟩
abbrev S10x2048x2048 : Shape := ⟨3, ![10, 2048, 2048]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S10x2048 : S_.BroadcastsInDim S10x2048 (![] : Fin 0 → Fin S10x2048.rank)
  reducesTo_S10x2048_S_d0_1 : S10x2048.ReducesTo [0, 1] S_
  bcast_S_S10x2048x2048 : S_.BroadcastsInDim S10x2048x2048 (![] : Fin 0 → Fin S10x2048x2048.rank)
  reducesTo_S10x2048x2048_S_d0_1_2 : S10x2048x2048.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg3 : IVec S1024 32) (main_v13 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v13 main_v16
  let main_c_6 : IVec S_ 32 := constantI S_ 32 10#32
  let main_v18 : IVec S1024 32 := broadcastInDim S1024 ![] bcast_S_S1024 main_c_6
  let main_v19 : IVec S1024 1 := cmpi .slt main_arg3 main_v18
  let main_c_7 : IVec S_ 1 := constantI S_ 1 1#1
  let main_v20 : IVec S_ 1 := (fun x v => Host.reduce IntOp.andi x v reducesTo_S1024_S_d0 h_S_) main_v19 main_c_7
  let main_v21 : IVec S_ 1 := andi main_v17 main_v20
  main_v21

def fn {F : FTy → Type} [FloatOps F] (main_arg0 : FVec F S1024x2048 .f32) (main_arg1 : FVec F S10x2048 .f32) (main_arg2 : FVec F S10x2048x2048 .f32) (main_arg3 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S10x2048 .f32 := Host.absf main_arg1
  let main_cst_0 : FVec F S_ .f32 := constant S_ .f32 0x7F800000#32
  let main_v5 : FVec F S10x2048 .f32 := broadcastInDim S10x2048 ![] bcast_S_S10x2048 main_cst_0
  let main_v6 : IVec S10x2048 1 := cmpf .olt main_v4 main_v5
  let main_c_1 : IVec S_ 1 := constantI S_ 1 1#1
  let main_v7 : IVec S_ 1 := (fun x v => Host.reduce IntOp.andi x v reducesTo_S10x2048_S_d0_1 h_S_) main_v6 main_c_1
  let main_v8 : IVec S_ 1 := andi main_v3 main_v7
  let main_v9 : FVec F S10x2048x2048 .f32 := Host.absf main_arg2
  let main_cst_2 : FVec F S_ .f32 := constant S_ .f32 0x7F800000#32
  let main_v10 : FVec F S10x2048x2048 .f32 := broadcastInDim S10x2048x2048 ![] bcast_S_S10x2048x2048 main_cst_2
  let main_v11 : IVec S10x2048x2048 1 := cmpf .olt main_v9 main_v10
  let main_c_3 : IVec S_ 1 := constantI S_ 1 1#1
  let main_v12 : IVec S_ 1 := (fun x v => Host.reduce IntOp.andi x v reducesTo_S10x2048x2048_S_d0_1_2 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg3 main_v14
  let main_c_5 : IVec S_ 1 := constantI S_ 1 1#1
  fn_part1 (F := F) main_arg3 main_v13 main_v15 main_c_5
-- ==== Kernel.lean ====
abbrev S1024x2048 : Shape := ⟨2, ![1024, 2048]⟩
abbrev S10x2048 : Shape := ⟨2, ![10, 2048]⟩
abbrev S10x2048x2048 : Shape := ⟨3, ![10, 2048, 2048]⟩
abbrev S1024 : Shape := ⟨1, ![1024]⟩
abbrev S10x1x2048 : Shape := ⟨3, ![10, 1, 2048]⟩
abbrev S1x1024x2048 : Shape := ⟨3, ![1, 1024, 2048]⟩
abbrev S1x1x1024 : Shape := ⟨3, ![1, 1, 1024]⟩
abbrev S1024x1024 : Shape := ⟨2, ![1024, 1024]⟩
abbrev S1x1024 : Shape := ⟨2, ![1, 1024]⟩
abbrev S1024x1 : Shape := ⟨2, ![1024, 1]⟩
abbrev S1024x16x128 : Shape := ⟨3, ![1024, 16, 128]⟩

abbrev nBuf : Space → Nat
  | .hbm => 9
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S10x2048, .f32⟩
  | .hbm, ⟨2, _⟩ => ⟨S10x2048x2048, .f32⟩
  | .hbm, ⟨3, _⟩ => ⟨S1024, .i32⟩
  | .hbm, ⟨4, _⟩ => ⟨S1024x2048, .bf16⟩
  | .hbm, ⟨5, _⟩ => ⟨S10x2048x2048, .bf16⟩
  | .hbm, ⟨6, _⟩ => ⟨S10x1x2048, .f32⟩
  | .hbm, ⟨7, _⟩ => ⟨S1024x2048, .f32⟩
  | .hbm, ⟨8, _⟩ => ⟨S1024x16x128, .f32⟩
  | .local _ .vmem, ⟨0, _⟩ => ⟨S1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1x1024, .f32⟩
  | .local _ .vmem, ⟨4, _⟩ => ⟨S1x1x1024, .f32⟩
  | .local _ .vmem, ⟨5, _⟩ => ⟨S1024, .i32⟩
  | .local _ .vmem, ⟨6, _⟩ => ⟨S1024x1024, .f32⟩
  | .local _ .vmem, ⟨7, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S10x2048_S10x1x2048 : S10x2048.ShapeCasts S10x1x2048
  inb_S1024x1024_S1024x1024_0_0 : ∀ a, (![0, 0] : Fin 2 → Nat) a + S1024x1024.size a ≤ S1024x1024.size a
  h_S1024x1024 : 0 < S1024x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1024_S1024_0 : ∀ a, (![0] : Fin 1 → Nat) a + S1024.size a ≤ S1024.size a
  h_S1024 : 0 < S1024.numel
  natLt_1_32 : 1 < 32
  shapeCasts_S1024_S1024x1 : S1024.ShapeCasts S1024x1
  shapeCasts_S1024x1024_S1024x1024 : S1024x1024.ShapeCasts S1024x1024
  broadcasts_S1024x1_S1024x1024 : S1024x1.Broadcasts S1024x1024
  shapeCasts_S1024x2048_S1024x16x128 : S1024x2048.ShapeCasts S1024x16x128
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x2048.size a
  hwx0_0 : ∀ i : grid0.Coords, EltTy.bits .bf16 = 32 ∨ (Rect.block (s := S1024x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S10x2048x2048.size a
  hwx0_1 : ∀ i : grid0.Coords, EltTy.bits .bf16 = 32 ∨ (Rect.block (s := S10x2048x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S10x1x2048.size a
  hwx0_2 : ∀ i : grid0.Coords, EltTy.bits .f32 = 32 ∨ (Rect.block (s := S10x1x2048) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .i32 = 32 ∨ (Rect.block (s := S1024) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x2048.size a
  hwx0_4 : ∀ i : grid0.Coords, EltTy.bits .f32 = 32 ∨ (Rect.block (s := S1024x2048) S1024x1024.size (cc0_transform_4 i) (hinb0_4 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S10x2048 : Shape := ⟨2, ![10, 2048]⟩
abbrev S10x2048x2048 : Shape := ⟨3, ![10, 2048, 2048]⟩
abbrev S1024 : Shape := ⟨1, ![1024]⟩
abbrev S10x2048x1024 : Shape := ⟨3, ![10, 2048, 1024]⟩
abbrev S10x1024x2048 : Shape := ⟨3, ![10, 1024, 2048]⟩
abbrev S10x1x2048 : Shape := ⟨3, ![10, 1, 2048]⟩
abbrev S_ : Shape := ⟨0, ![]⟩
abbrev S1024x1 : Shape := ⟨2, ![1024, 1]⟩
abbrev S1024x2 : Shape := ⟨2, ![1024, 2]⟩
abbrev S1024x16x128 : Shape := ⟨3, ![1024, 16, 128]⟩

abbrev nBuf : Space → Nat
  | .hbm => 29
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S10x2048, .f32⟩
  | .hbm, ⟨2, _⟩ => ⟨S10x2048x2048, .f32⟩
  | .hbm, ⟨3, _⟩ => ⟨S1024, .i32⟩
  | .hbm, ⟨4, _⟩ => ⟨S10x2048x1024, .f32⟩
  | .hbm, ⟨5, _⟩ => ⟨S10x1024x2048, .f32⟩
  | .hbm, ⟨6, _⟩ => ⟨S10x1x2048, .f32⟩
  | .hbm, ⟨7, _⟩ => ⟨S10x1024x2048, .f32⟩
  | .hbm, ⟨8, _⟩ => ⟨S10x1024x2048, .f32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1024x1, .i32⟩
  | .hbm, ⟨26, _⟩ => ⟨S1024x2, .i32⟩
  | .hbm, ⟨27, _⟩ => ⟨S1024x2048, .f32⟩
  | .hbm, ⟨28, _⟩ => ⟨S1024x16x128, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S10x2048x1024_S10x1024x2048_0_2_1 : S10x2048x1024.Transposes [0, 2, 1] S10x1024x2048
  bcast_S10x2048_S10x1x2048_0_2 : S10x2048.BroadcastsInDim S10x1x2048 (![0, 2] : Fin 2 → Fin S10x1x2048.rank)
  bcast_S10x1x2048_S10x1024x2048_0_1_2 : S10x1x2048.BroadcastsInDim S10x1024x2048 (![0, 1, 2] : Fin 3 → Fin S10x1024x2048.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  shapeCasts_S1024x2048_S1024x16x128 : S1024x2048.ShapeCasts S1024x16x128
  dot_S10x2048x2048_S1024x2048_S10x2048x1024_2_1_01_0_n_n_wf : DotDims.WF S10x2048x2048 S1024x2048 S10x2048x1024 [2] [1] [0, 1] [0] [] []
  gather_S10x1024x2048_S1024x2_S1024x2048_1_01_n_n_01_1_112048_wf : GatherDims.WF S10x1024x2048 S1024x2 S1024x2048 [1] [0, 1] [] [0, 1] [] 1 ![1, 1, 2048]

variable [Facts₀]

def dot_S10x2048x2048_S1024x2048_S10x2048x1024_2_1_01_0_n_n : DotDims S10x2048x2048 S1024x2048 S10x2048x1024 where
  lhsContracting := [2]
  rhsContracting := [1]
  lhsNonContracting := [0, 1]
  rhsNonContracting := [0]
  lhsBatch := []
  rhsBatch := []
  wf := dot_S10x2048x2048_S1024x2048_S10x2048x1024_2_1_01_0_n_n_wf
def gather_S10x1024x2048_S1024x2_S1024x2048_1_01_n_n_01_1_112048 : GatherDims S10x1024x2048 S1024x2 S1024x2048 where
  offsetDims := [1]
  collapsedSliceDims := [0, 1]
  operandBatchingDims := []
  startIndicesBatchingDims := []
  startIndexMap := [0, 1]
  indexVectorDim := 1
  sliceSizes := ![1, 1, 2048]
  wf := gather_S10x1024x2048_S1024x2_S1024x2048_1_01_n_n_01_1_112048_wf

class Facts : Prop extends Facts₀ where

variable [Facts]
-- ==== Proof.Spec.lean ====
/-
  The mathematics both programs compute, stated once over the argument arrays.

  For a sample b with label w = components[b] and an output feature e, the result is the value of ONE expert,
      expert k b e = (∑ d, z[b, d] · L[k, e, d]) + mu[k, e],
  at k = w.  The kernel reaches it by walking k = 0 … 9 and adding weight(w, k) · expert k b e to a running total
  that starts at 0, where weight(w, k) is 1 when w = k and 0 otherwise; the reference reads it out of the table
  of all ten experts at the row w selects.  For 0 ≤ w < 10 the two agree, and the only laws of the extended reals
  used are 0 · x = 0, 1 · x = x and 0 + x = x, which hold at the infinities too.
-/
import Idealize.ShloMosaic.PureOps.Ideal
import Idealize.ShloMosaic.Lib.ValueIdx
import Idealize.ShloMosaic.Lib.StableHlo.Predicate

noncomputable section

open scoped BigOperators

namespace Cert.MixtureSpec

open Idealize.ShloMosaic Idealize.ShloMosaic.ValueIdx

/-- Samples × input features. -/
abbrev Sz : Shape := ⟨2, ![1024, 2048]⟩
/-- Experts × output features: the offsets. -/
abbrev Smu : Shape := ⟨2, ![10, 2048]⟩
/-- Experts × output features × input features: the linear maps. -/
abbrev SL : Shape := ⟨3, ![10, 2048, 2048]⟩
/-- One label per sample. -/
abbrev Sc : Shape := ⟨1, ![1024]⟩

/-- Expert k applied to sample b, read at output feature e: the row e of L[k] against z[b], plus the offset. -/
def expert (z : Sz.Idx → EReal) (mu : Smu.Idx → EReal) (L : SL.Idx → EReal) (k : Fin 10) (b : Fin 1024) (e : Fin 2048) : EReal :=
  (∑ d : Fin 2048, z (ix2 b d) * L (ix3 k e d)) + mu (ix2 k e)

/-- The same with the expert given as a natural number (0 outside the ten experts), so that a running index
    needs no bound carried in its type. -/
def expertN (z : Sz.Idx → EReal) (mu : Smu.Idx → EReal) (L : SL.Idx → EReal) (k : ℕ) (b : Fin 1024) (e : Fin 2048) : EReal :=
  if h : k < 10 then expert z mu L ⟨k, h⟩ b e else 0

theorem expertN_of_lt (z : Sz.Idx → EReal) (mu : Smu.Idx → EReal) (L : SL.Idx → EReal) {k : ℕ} (h : k < 10) (b : Fin 1024) (e : Fin 2048) :
    expertN z mu L k b e = expert z mu L ⟨k, h⟩ b e := dif_pos h

/-- The row of the ten-expert table a label selects: the label read as a signed integer and brought into 0 … 9. -/
def pick (w : BitVec 32) : Fin 10 := ⟨min w.toInt.toNat 9, by omega⟩

/-- What both programs end with at sample b, feature e. -/
def selected (z : Sz.Idx → EReal) (mu : Smu.Idx → EReal) (L : SL.Idx → EReal) (comp : Sc.Idx → BitVec 32) : Sz.Idx → EReal :=
  fun y => expert z mu L (pick (comp (ix1 (y 0)))) (y 0) (y 1)

/-- A label below ten selects the expert of its own number. -/
theorem pick_of_lt {w : BitVec 32} (hw : w.toNat < 10) : (pick w).val = w.toNat := by
  unfold pick
  have : w.toInt = w.toNat := StableHlo.Predicate.toInt_eq_toNat_of_lt (by omega)
  show min w.toInt.toNat 9 = w.toNat
  rw [this]
  simp only [Int.toNat_natCast]
  omega

/-- The weight the kernel gives expert v for label w: the comparison bit, widened and converted. -/
def weight (w v : BitVec 32) : EReal := ((((IntOp.cmpi .eq w v).setWidth 32).toInt : ℝ) : EReal)

theorem weight_of_eq {w v : BitVec 32} (h : w = v) : weight w v = 1 := by
  unfold weight
  rw [StableHlo.Predicate.cmpi_eq_iff.mpr h]
  norm_num

theorem weight_of_ne {w v : BitVec 32} (h : w ≠ v) : weight w v = 0 := by
  unfold weight
  have h0 : IntOp.cmpi .eq w v = 0#1 := by
    rcases BitVec.eq_zero_or_eq_one (IntOp.cmpi .eq w v) with h' | h'
    · exact h'
    · exact absurd (StableHlo.Predicate.cmpi_eq_iff.mp h') h
  rw [h0]
  norm_num

/-- A label below ten is the word of its own value. -/
theorem eq_ofNat_iff {w : BitVec 32} {k : ℕ} (hk : k < 10) : w = BitVec.ofNat 32 k ↔ w.toNat = k := by
  constructor
  · intro h; rw [h, BitVec.toNat_ofNat]; omega
  · intro h; apply BitVec.eq_of_toNat_eq; rw [BitVec.toNat_ofNat, h]; omega

/-- After the first expert: the running total holds expert 0's value exactly for the label 0. -/
theorem total_first (E : ℕ → EReal) (w : BitVec 32) :
    (0 : EReal) + weight w (BitVec.ofNat 32 0) * E 0 = if w.toNat ≤ 0 then E w.toNat else 0 := by
  by_cases h : w = BitVec.ofNat 32 0
  · have h0 : w.toNat = 0 := (eq_ofNat_iff (by omega)).mp h
    rw [weight_of_eq h, one_mul, zero_add, if_pos (by omega), h0]
  · have h0 : w.toNat ≠ 0 := fun h' => h ((eq_ofNat_iff (by omega)).mpr h')
    rw [weight_of_ne h, zero_mul, zero_add, if_neg (by omega)]

/-- After expert k + 1: a label already met keeps its value (the new term is 0), the label k + 1 receives its
    value on top of 0, a later label still holds 0. -/
theorem total_next (E : ℕ → EReal) (w : BitVec 32) (k : ℕ) (hk : k + 1 < 10) :
    (if w.toNat ≤ k then E w.toNat else 0) + weight w (BitVec.ofNat 32 (k + 1)) * E (k + 1)
      = if w.toNat ≤ k + 1 then E w.toNat else 0 := by
  by_cases h : w = BitVec.ofNat 32 (k + 1)
  · have h0 : w.toNat = k + 1 := (eq_ofNat_iff hk).mp h
    rw [weight_of_eq h, one_mul, if_neg (by omega), zero_add, if_pos (by omega), h0]
  · have h0 : w.toNat ≠ k + 1 := fun h' => h ((eq_ofNat_iff hk).mpr h')
    rw [weight_of_ne h, zero_mul, add_zero]
    by_cases h1 : w.toNat ≤ k
    · rw [if_pos h1, if_pos (by omega)]
    · rw [if_neg h1, if_neg (by omega)]

end Cert.MixtureSpec

end
-- ==== Proof.Payload.lean ====
/-
  The kernel body's one arithmetic payload, read at one element of the output block.

  At grid point (n, k) the body holds the whole of z (x : 1024 × 2048), the 1024 rows of L[k] belonging to
  output-feature tile n (l : 1 × 1024 × 2048), the matching 1024 offsets of mu[k] (o : 1 × 1 × 1024), every label
  (c : 1024) and the running total (acc : 1024 × 1024).  At sample b and tile feature e it stores
      acc[b, e] + weight(c[b], k) · ((∑ d, x[b, d] · l[0, e, d]) + o[0, 0, e]).
-/
import proofs.«426643_j41781441856011_2_alg».proof.Proof.Gen.KernelIdeal.Skeleton
import proofs.«426643_j41781441856011_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.MixtureSpec

variable [Facts]

/-- The offsets' block viewed as one row: (0, e) reads (0, 0, e). -/
theorem offsets_row (o : (⟨3, ![1, 1, 1024]⟩ : Shape).Idx → EReal) (h : S1x1x1024.ShapeCasts S1x1024) (e : Fin 1024) :
    shapeCast S1x1024 o h (ix2 (0 : Fin 1) e) = o (ix3 (0 : Fin 1) (0 : Fin 1) e) :=
  shapeCast_apply o h _ _ (by
    rw [Shape.rowMajor_val_three, Shape.rowMajor_val_two]
    show (0 * 1 + 0) * 1024 + e.val = 0 * 1024 + e.val
    omega)

/-- The weights viewed as a column: (b, 0) reads b. -/
theorem weights_col (v : (⟨1, ![1024]⟩ : Shape).Idx → EReal) (h : S1024.ShapeCasts S1024x1) (b : Fin 1024) :
    shapeCast S1024x1 v h (ix2 b (0 : Fin 1)) = v (ix1 b) :=
  shapeCast_apply v h _ _ (by
    rw [Shape.rowMajor_val_one, Shape.rowMajor_val_two]
    show b.val = b.val * 1 + 0
    omega)

/-- The weight column spread over the features: (b, e) reads (b, 0). -/
theorem col_spread (v : (⟨2, ![1024, 1]⟩ : Shape).Idx → EReal) (h : S1024x1.Broadcasts S1024x1024) (b e : Fin 1024) :
    broadcastTo S1024x1024 v h (ix2 b e) = v (ix2 b (0 : Fin 1)) := by
  refine broadcastTo_apply v h (ix2 b e) (ix2 b (0 : Fin 1)) fun ax => ?_
  match ax with
  | ⟨0, _⟩ => rfl
  | ⟨1, _⟩ => rfl

/-! ### The body's matrix product: both operands contracted along their second axis -/

theorem lhs_axis0 (j : S1024x1024.Idx) (q : dot_S1024x2048_S1024x2048_S1024x1024_1_1_0_0_n_n.contr.Idx) :
    (dot_S1024x2048_S1024x2048_S1024x1024_1_1_0_0_n_n.lhsIdx j q 0).val = (j 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_axis1 (j : S1024x1024.Idx) (q : dot_S1024x2048_S1024x2048_S1024x1024_1_1_0_0_n_n.contr.Idx) :
    (dot_S1024x2048_S1024x2048_S1024x1024_1_1_0_0_n_n.lhsIdx j q 1).val = (q ⟨0, by decide⟩).val :=
  dot_S1024x2048_S1024x2048_S1024x1024_1_1_0_0_n_n.lhsIdx_val_of_single rfl j q
theorem rhs_axis0 (j : S1024x1024.Idx) (q : dot_S1024x2048_S1024x2048_S1024x1024_1_1_0_0_n_n.contr.Idx) :
    (dot_S1024x2048_S1024x2048_S1024x1024_1_1_0_0_n_n.rhsIdx j q 0).val = (j 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_axis1 (j : S1024x1024.Idx) (q : dot_S1024x2048_S1024x2048_S1024x1024_1_1_0_0_n_n.contr.Idx) :
    (dot_S1024x2048_S1024x2048_S1024x1024_1_1_0_0_n_n.rhsIdx j q 1).val = (q ⟨0, by decide⟩).val :=
  dot_S1024x2048_S1024x2048_S1024x1024_1_1_0_0_n_n.rhsIdx_val_of_single rfl j q

/-- Into a zero accumulator, entry (b, e) of the product is row b of the left operand against row e of the right. -/
theorem rows_dot (x r : FVec Ideal S1024x2048 .bf16) (b e : Fin 1024) :
    matmul dot_S1024x2048_S1024x2048_S1024x1024_1_1_0_0_n_n none x r (constant S1024x1024 .f32 0x00000000#32) (ix2 b e)
      = ∑ d : Fin 2048, x (ix2 b d) * r (ix2 e d) := by
  simp only [matmul]
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 b e) ((contrEquiv1 dot_S1024x2048_S1024x2048_S1024x1024_1_1_0_0_n_n 2048 rfl rfl).symm k) = ix2 b k := funext fun a => Fin.ext (by
    match a with
    | ⟨0, _⟩ => exact lhs_axis0 _ _
    | ⟨1, _⟩ => exact (lhs_axis1 _ _).trans hk)
  have er : dot_S1024x2048_S1024x2048_S1024x1024_1_1_0_0_n_n.rhsIdx (ix2 b e) ((contrEquiv1 dot_S1024x2048_S1024x2048_S1024x1024_1_1_0_0_n_n 2048 rfl rfl).symm k) = ix2 e k := funext fun a => Fin.ext (by
    match a with
    | ⟨0, _⟩ => exact rhs_axis0 _ _
    | ⟨1, _⟩ => exact (rhs_axis1 _ _).trans hk)
  rw [el, er]

/-- The payload at (b, e). -/
theorem pay2_apply (i : grid0.Coords) (x : Vec Ideal S1024x2048 .bf16) (l : Vec Ideal S1x1024x2048 .bf16)
    (o : Vec Ideal S1x1x1024 .f32) (c : Vec Ideal S1024 .i32) (acc : Vec Ideal S1024x1024 .f32) (b e : Fin 1024) :
    k0_pay2 (F := Ideal) i x l o c acc (ix2 b e)
      = acc (ix2 b e) + weight (c (ix1 b)) (BitVec.ofNat 32 (i 1).val)
          * ((∑ d : Fin 2048, x (ix2 b d) * l (ix3 (0 : Fin 1) e d)) + o (ix3 (0 : Fin 1) (0 : Fin 1) e)) := by
  unfold k0_pay2
  simp only [shapeCast_self, addf_apply, mulf_apply]
  rw [col_spread, weights_col, rows_dot, broadcastTo_1b_ab_apply, offsets_row]
  simp only [shapeCast_1ab_ab_apply]
  rfl

end Cert.KernelIdeal.Body

end
-- ==== Proof.Pieces.lean ====
/-
  What one run of the body leaves in the output tile's staging buffer, as a value.

  At a point with k ≠ 0 the body's single covering store writes the payload computed from the loaded blocks and
  from the running total the buffer held on entry.  At a point with k = 0 the body first stores the zero tile and
  then does the same, so the running total its payload reads is that zero tile.
-/
import proofs.«426643_j41781441856011_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A later point (k ≠ 0): the payload over the total found in the buffer. -/
theorem later_point (c : Dev nD) (i : grid0.Coords) (a2 : Memref sig .tc .vmem S1024x2048 .bf16) (h2 : a2.IsWhole) (a3 : Memref sig .tc .vmem S1x1024x2048 .bf16) (h3 : a3.IsWhole) (a4 : Memref sig .tc .vmem S1x1x1024 .f32) (h4 : a4.IsWhole) (a5 : Memref sig .tc .vmem S1024 .i32) (h5 : a5.IsWhole) (a6 : Memref sig .tc .vmem S1024x1024 .f32) (h6 : a6.IsWhole) (hc : ¬cond0_0 i)
    (x0 : Vec F S1024x2048 .bf16) (x1 : Vec F S1x1024x2048 .bf16) (x2 : Vec F S1x1x1024 .f32) (x3 : Vec F S1024 .i32) (xo : Vec F S1024x1024 .f32) :
    out0_B_4 c i a2 h2 a3 h3 a4 h4 a5 h5 a6 h6 hc x0 x1 x2 x3 xo = k0_pay2 i x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S1024x2048) hz2, View.ld_unit_zero (S := S1x1024x2048) hz3,
    View.ld_unit_zero (S := S1x1x1024) hz3, View.ld_unit_zero (S := S1024) hz1, View.ld_unit_zero (S := S1024x1024) hz2]

/-- A first point (k = 0): the payload over the zero tile. -/
theorem first_point (c : Dev nD) (i : grid0.Coords) (a2 : Memref sig .tc .vmem S1024x2048 .bf16) (h2 : a2.IsWhole) (a3 : Memref sig .tc .vmem S1x1024x2048 .bf16) (h3 : a3.IsWhole) (a4 : Memref sig .tc .vmem S1x1x1024 .f32) (h4 : a4.IsWhole) (a5 : Memref sig .tc .vmem S1024 .i32) (h5 : a5.IsWhole) (a6 : Memref sig .tc .vmem S1024x1024 .f32) (h6 : a6.IsWhole) (hc : cond0_0 i)
    (x0 : Vec F S1024x2048 .bf16) (x1 : Vec F S1x1024x2048 .bf16) (x2 : Vec F S1x1x1024 .f32) (x3 : Vec F S1024 .i32) :
    out0_A_4 c i a2 h2 a3 h3 a4 h4 a5 h5 a6 h6 hc x0 x1 x2 x3 = k0_pay2 i x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1024x1024) hz2]
  simp only [View.readAt_eq_ld, h2.read_unread, h3.read_unread, h4.read_unread, h5.read_unread,
    View.ld_unit_zero (S := S1024x2048) hz2, View.ld_unit_zero (S := S1x1024x2048) hz3,
    View.ld_unit_zero (S := S1x1x1024) hz3, View.ld_unit_zero (S := S1024) hz1, View.ld_unit_zero (S := S1024x1024) hz2,
    View.readCov_unit_zero (S := S1024x1024) _ hz2]

end Cert.KernelIdeal.Pieces

end
-- ==== Proof.Blocks.lean ====
/-
  What the body's loads see at grid point t = 10 n + k (n the output-feature tile, k the expert).

  Before the launch z and L are narrowed to bf16 — at the extended reals the identity — and mu is viewed as
  10 × 1 × 2048.  The windows then hand the body: all of z; rows 1024 n … 1024 n + 1023 of L[k]; entries
  1024 n … 1024 n + 1023 of mu[k]; every label.
-/
import proofs.«426643_j41781441856011_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The argument arrays as launched, at their literal types. -/
abbrev zArr (c : Dev nD) : S1024x2048.Idx → EReal := m ((c : Thread nD τ).loc main_arg0)
abbrev muArr (c : Dev nD) : S10x2048.Idx → EReal := m ((c : Thread nD τ).loc main_arg1)
abbrev lArr (c : Dev nD) : S10x2048x2048.Idx → EReal := m ((c : Thread nD τ).loc main_arg2)
abbrev cArr (c : Dev nD) : S1024.Idx → BitVec 32 := m ((c : Thread nD τ).loc main_arg3)

/-- The blocks the body loads at point t, at their literal types. -/
abbrev zBlk (c : Dev nD) (t : Fin cfg0.N) : Vec Ideal S1024x2048 .bf16 := iblk m c 0 t
abbrev lBlk (c : Dev nD) (t : Fin cfg0.N) : Vec Ideal S1x1024x2048 .bf16 := iblk m c 1 t
abbrev muBlk (c : Dev nD) (t : Fin cfg0.N) : Vec Ideal S1x1x1024 .f32 := iblk m c 2 t
abbrev cBlk (c : Dev nD) (t : Fin cfg0.N) : Vec Ideal S1024 .i32 := iblk m c 3 t

/-! ### The arrays the region finds -/

theorem found_z (c : Dev nD) : (V m c main_v0 : S1024x2048.Idx → EReal) = zArr m c := by
  show StableHlo.after hostOps0 (fun b => m (c, b)) (Proc.devRef .tc main_v0) = _
  after_results
  rfl

theorem found_l (c : Dev nD) : (V m c main_v1 : S10x2048x2048.Idx → EReal) = lArr m c := by
  show StableHlo.after hostOps0 (fun b => m (c, b)) (Proc.devRef .tc main_v1) = _
  after_results
  rfl

theorem found_mu (c : Dev nD) : (V m c main_v2 : S10x1x2048.Idx → EReal)
    = shapeCast S10x1x2048 (muArr m c) shapeCasts_S10x2048_S10x1x2048 := by
  show StableHlo.after hostOps0 (fun b => m (c, b)) (Proc.devRef .tc main_v2) = _
  after_results
  rfl

/-! ### The index maps over the twenty points -/

theorem point_lt (t : Fin cfg0.N) : t.val < 20 := lt_of_lt_of_eq t.isLt (show cfg0.N = 20 from N_0)

theorem coords_facts : ∀ t : Fin cfg0.N, (grid0.coords t 0).val = t.val / 10 ∧ (grid0.coords t 1).val = t.val % 10 :=
  (by decide +kernel : ∀ t : Fin grid0.N, (grid0.coords t 0).val = t.val / 10 ∧ (grid0.coords t 1).val = t.val % 10)

theorem index_z : ∀ t : Fin cfg0.N, win0_0.index t 0 = 0 ∧ win0_0.index t 1 = 0 :=
  (by decide +kernel : ∀ t : Fin grid0.N, win0_0.index t 0 = 0 ∧ win0_0.index t 1 = 0)

theorem index_l : ∀ t : Fin cfg0.N, win0_1.index t 0 = t.val % 10 ∧ win0_1.index t 1 = t.val / 10 ∧ win0_1.index t 2 = 0 :=
  (by decide +kernel : ∀ t : Fin grid0.N, win0_1.index t 0 = t.val % 10 ∧ win0_1.index t 1 = t.val / 10 ∧ win0_1.index t 2 = 0)

theorem index_mu : ∀ t : Fin cfg0.N, win0_2.index t 0 = t.val % 10 ∧ win0_2.index t 1 = 0 ∧ win0_2.index t 2 = t.val / 10 :=
  (by decide +kernel : ∀ t : Fin grid0.N, win0_2.index t 0 = t.val % 10 ∧ win0_2.index t 1 = 0 ∧ win0_2.index t 2 = t.val / 10)

theorem index_c : ∀ t : Fin cfg0.N, win0_3.index t 0 = 0 :=
  (by decide +kernel : ∀ t : Fin grid0.N, win0_3.index t 0 = 0)

/-! ### The blocks at an index -/

/-- The body sees all of z. -/
theorem zBlk_apply (c : Dev nD) (t : Fin cfg0.N) (b : Fin 1024) (d : Fin 2048) :
    zBlk m c t (ix2 b d) = zArr m c (ix2 b d) := by
  unfold zBlk iblk
  rw [View.read_apply]
  show V m c main_v0 _ = zArr m c _
  rw [found_z]
  congr 1
  funext a
  apply Fin.ext
  match a with
  | ⟨0, _⟩ => show win0_0.index t 0 * 1024 + 1 * b.val = b.val; rw [(index_z t).1]; omega
  | ⟨1, _⟩ => show win0_0.index t 1 * 2048 + 1 * d.val = d.val; rw [(index_z t).2]; omega

/-- Row e of the block of L is row 1024 n + e of L[k]. -/
theorem lBlk_apply (c : Dev nD) (t : Fin cfg0.N) (e : Fin 1024) (d : Fin 2048) :
    lBlk m c t (ix3 (0 : Fin 1) e d)
      = lArr m c (ix3 (⟨t.val % 10, Nat.mod_lt _ (by decide)⟩ : Fin 10)
          (⟨t.val / 10 * 1024 + e.val, by have := point_lt t; have := e.isLt; omega⟩ : Fin 2048) d) := by
  unfold lBlk iblk
  rw [View.read_apply]
  show V m c main_v1 _ = lArr m c _
  rw [found_l]
  congr 1
  funext a
  apply Fin.ext
  match a with
  | ⟨0, _⟩ => show win0_1.index t 0 * 1 + 1 * 0 = t.val % 10; rw [(index_l t).1]; omega
  | ⟨1, _⟩ => show win0_1.index t 1 * 1024 + 1 * e.val = t.val / 10 * 1024 + e.val; rw [(index_l t).2.1]; omega
  | ⟨2, _⟩ => show win0_1.index t 2 * 2048 + 1 * d.val = d.val; rw [(index_l t).2.2]; omega

/-- Entry e of the block of offsets is entry 1024 n + e of mu[k]. -/
theorem muBlk_apply (c : Dev nD) (t : Fin cfg0.N) (e : Fin 1024) :
    muBlk m c t (ix3 (0 : Fin 1) (0 : Fin 1) e)
      = muArr m c (ix2 (⟨t.val % 10, Nat.mod_lt _ (by decide)⟩ : Fin 10)
          (⟨t.val / 10 * 1024 + e.val, by have := point_lt t; have := e.isLt; omega⟩ : Fin 2048)) := by
  unfold muBlk iblk
  rw [View.read_apply]
  show V m c main_v2 _ = muArr m c _
  rw [found_mu]
  refine shapeCast_apply (muArr m c) shapeCasts_S10x2048_S10x1x2048 _ _ ?_
  rw [Shape.rowMajor_val_two, Shape.rowMajor_val_three]
  show t.val % 10 * 2048 + (t.val / 10 * 1024 + e.val)
    = ((win0_2.index t 0 * 1 + 1 * 0) * 1 + (win0_2.index t 1 * 1 + 1 * 0)) * 2048 + (win0_2.index t 2 * 1024 + 1 * e.val)
  rw [(index_mu t).1, (index_mu t).2.1, (index_mu t).2.2]
  omega

/-- The body sees every label. -/
theorem cBlk_apply (c : Dev nD) (t : Fin cfg0.N) (b : Fin 1024) :
    cBlk m c t (ix1 b) = cArr m c (ix1 b) := by
  unfold cBlk iblk
  rw [View.read_apply]
  show V m c main_arg3 _ = cArr m c _
  rw [V_main_arg3]
  congr 1
  funext a
  apply Fin.ext
  match a with
  | ⟨0, _⟩ => show win0_3.index t 0 * 1024 + 1 * b.val = b.val; rw [index_c t]; omega

end Cert.KernelIdeal.Blocks

end
-- ==== Proof.Running.lean ====
/-
  The running total after each grid point, in closed form.

  Points are numbered t = 10 n + k.  Within one output-feature tile n the body adds, for k = 0, 1, …, 9 in turn,
  weight(label, k) · expert k to a total that the k = 0 point first resets to zero.  So after point t the tile
  holds, at sample b and tile feature e, the value of the sample's own expert at feature 1024 n + e as soon as
  k has reached the label, and 0 before that — an induction on t, whose step is the scalar law of the
  specification (a label already met keeps its value; the label k receives its value on top of 0).
-/
import proofs.«426643_j41781441856011_2_alg».proof.Proof.Payload
import proofs.«426643_j41781441856011_2_alg».proof.Proof.Pieces
import proofs.«426643_j41781441856011_2_alg».proof.Proof.Blocks

set_option maxRecDepth 16384

noncomputable section

open scoped BigOperators

namespace Cert.KernelIdeal.Running

open Idealize.ShloMosaic Idealize.ShloMosaic.TcCoe Idealize.ShloMosaic.ValueIdx Idealize.SL.Sem
open Cert.KernelIdeal Cert.KernelIdeal.Gen Cert.KernelIdeal.Blocks Cert.MixtureSpec

variable (m : (ℓ : Loc nD τ sig) → Buf (Elt Ideal) ℓ)

/-- Output feature 1024 n + e of tile n = t / 10. -/
def feature (t : ℕ) (ht : t < 20) (e : Fin 1024) : Fin 2048 := ⟨t / 10 * 1024 + e.val, by have := e.isLt; omega⟩

/-- The sample's label. -/
abbrev label (c : Dev nD) (b : Fin 1024) : BitVec 32 := cArr m c (ix1 b)

/-- Expert j's value for sample b at feature f, over the argument arrays. -/
abbrev value (c : Dev nD) (j : ℕ) (b : Fin 1024) (f : Fin 2048) : EReal := expertN (zArr m c) (muArr m c) (lArr m c) j b f

/-- The zero tile reads 0. -/
theorem zero_tile (b e : Fin 1024) : k0_pay1 (F := Ideal) (ix2 b e) = 0 := by
  show Ideal.ofBits .f32 0x00000000#32 = 0
  exact Ideal.ofBits_zero_f32

/-- What the body stores at point t over a total acc: acc plus the weighted value of expert k = t mod 10. -/
theorem stored (c : Dev nD) (t : Fin cfg0.N) (acc : Vec Ideal S1024x1024 .f32) (b e : Fin 1024) :
    k0_pay2 (F := Ideal) (grid0.coords t) (zBlk m c t) (lBlk m c t) (muBlk m c t) (cBlk m c t) acc (ix2 b e)
      = acc (ix2 b e) + weight (label m c b) (BitVec.ofNat 32 (t.val % 10))
          * value m c (t.val % 10) b (feature t.val (point_lt t) e) := by
  rw [Cert.KernelIdeal.Body.pay2_apply, cBlk_apply, muBlk_apply, (coords_facts t).2]
  unfold value
  rw [expertN_of_lt _ _ _ (Nat.mod_lt _ (by decide))]
  unfold expert
  simp only [zBlk_apply, lBlk_apply]
  rfl

/-- A first point of a tile stores over the zero tile. -/
theorem at_first (c : Dev nD) (t : Fin cfg0.N) (h0 : t.val % 10 = 0) :
    outsAt0 m c t.val t.isLt
      = k0_pay2 (F := Ideal) (grid0.coords t) (zBlk m c t) (lBlk m c t) (muBlk m c t) (cBlk m c t) (k0_pay1 (F := Ideal)) :=
  (outsAt0_A m c t h0).trans
    (Cert.KernelIdeal.Pieces.first_point (F := Ideal) c (grid0.coords t) (ms0_0 t) (hs0_0 t) (ms0_1 t) (hs0_1 t) (ms0_2 t) (hs0_2 t)
      (ms0_3 t) (hs0_3 t) (ms0_4 t) (hs0_4 t) ((hcond0_0 t).mpr h0) (iblk m c 0 t) (iblk m c 1 t) (iblk m c 2 t) (iblk m c 3 t))

/-- A later point stores over what the point before left. -/
theorem at_later (c : Dev nD) (t : Fin cfg0.N) (h0 : ¬t.val % 10 = 0) :
    outsAt0 m c t.val t.isLt
      = k0_pay2 (F := Ideal) (grid0.coords t) (zBlk m c t) (lBlk m c t) (muBlk m c t) (cBlk m c t)
          (outsAt0 m c (t.val - 1) (Nat.lt_of_le_of_lt (Nat.sub_le _ _) t.isLt)) :=
  (outsAt0_B m c t h0).trans
    (Cert.KernelIdeal.Pieces.later_point (F := Ideal) c (grid0.coords t) (ms0_0 t) (hs0_0 t) (ms0_1 t) (hs0_1 t) (ms0_2 t) (hs0_2 t)
      (ms0_3 t) (hs0_3 t) (ms0_4 t) (hs0_4 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)))

/-- THE RUNNING TOTAL after point t: the sample's own expert once k = t mod 10 has reached its label, else 0. -/
theorem total_after (c : Dev nD) : ∀ (t : ℕ) (h : t < cfg0.N) (b e : Fin 1024),
    outsAt0 m c t h (ix2 b e)
      = if (label m c b).toNat ≤ t % 10 then
          value m c (label m c b).toNat b (feature t (lt_of_lt_of_eq h (show cfg0.N = 20 from N_0)) e)
        else 0
  | 0, h, b, e => by
    rw [at_first m c ⟨0, h⟩ rfl, stored, zero_tile]
    exact total_first (fun j => value m c j b (feature 0 (by decide) e)) (label m c b)
  | t + 1, h, b, e => by
    have hN : t + 1 < 20 := lt_of_lt_of_eq h (show cfg0.N = 20 from N_0)
    by_cases h0 : (t + 1) % 10 = 0
    · rw [at_first m c ⟨t + 1, h⟩ h0, stored, zero_tile]
      show (0 : EReal) + weight (label m c b) (BitVec.ofNat 32 ((t + 1) % 10)) * value m c ((t + 1) % 10) b (feature (t + 1) hN e) = _
      rw [h0]
      exact total_first (fun j => value m c j b (feature (t + 1) hN e)) (label m c b)
    · rw [at_later m c ⟨t + 1, h⟩ h0, stored]
      show outsAt0 m c t _ (ix2 b e) + weight (label m c b) (BitVec.ofNat 32 ((t + 1) % 10)) * value m c ((t + 1) % 10) b (feature (t + 1) hN e) = _
      rw [total_after c t (Nat.lt_of_succ_lt h) b e]
      have hk : (t + 1) % 10 = t % 10 + 1 := by omega
      have hd : (t + 1) / 10 = t / 10 := by omega
      have hf : feature t (by omega) e = feature (t + 1) hN e :=
        Fin.ext (by show t / 10 * 1024 + e.val = (t + 1) / 10 * 1024 + e.val; rw [hd])
      rw [hk, hf]
      exact total_next (fun j => value m c j b (feature (t + 1) hN e)) (label m c b) (t % 10) (by omega)

end Cert.KernelIdeal.Running

end
-- ==== Proof.Result.lean ====
/-
  What the kernel's result holds after the run.

  Tile n of the output is written back once, after its tenth point t = 10 n + 9.  By then k = 9 has reached every
  label in 0 … 9, so the tile holds each sample's own expert at the features 1024 n … 1024 n + 1023.  The two
  tiles cover all 2048 features, so the 1024 × 2048 array the region writes is, at (b, f), expert label(b) at
  (b, f); the program then only views that array as 1024 × 16 × 128.
-/
import proofs.«426643_j41781441856011_2_alg».proof.Proof.Running
import Idealize.ShloMosaic.Lib.StableHlo.Run

set_option maxRecDepth 16384

noncomputable section

open scoped BigOperators

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Running Cert.MixtureSpec

variable (m : (ℓ : Loc nD τ sig) → Buf (Elt Ideal) ℓ) (ρ : Dev nD → PrngReg)

/-- Every sample at its own expert: what the region's output array ends holding. -/
abbrev written (c : Dev nD) : S1024x2048.Idx → EReal := selected (zArr m c) (muArr m c) (lArr m c) (cArr m c)

/-- The output window's block index at point t: all samples, feature tile t / 10. -/
theorem index_o : ∀ t : Fin cfg0.N, win0_4.index t 0 = 0 ∧ win0_4.index t 1 = t.val / 10 :=
  (by decide +kernel : ∀ t : Fin grid0.N, win0_4.index t 0 = 0 ∧ win0_4.index t 1 = t.val / 10)

/-- After a tile's tenth point every label in range has been reached. -/
theorem tile_done (c : Dev nD) (hr : ∀ b, (label m c b).toNat < 10) (t : Fin cfg0.N) (h9 : t.val % 10 = 9) (b e : Fin 1024) :
    outsAt0 m c t.val t.isLt (ix2 b e) = written m c (ix2 b (feature t.val (point_lt t) e)) := by
  rw [total_after m c t.val t.isLt b e, h9, if_pos (by have := hr b; omega)]
  unfold value written selected
  rw [expertN_of_lt _ _ _ (hr b)]
  show expert _ _ _ _ b _ = expert _ _ _ (pick (label m c b)) b _
  congr 1
  exact Fin.ext (pick_of_lt (hr b)).symm

/-- What a tile's tenth point writes back is that tile of `written`. -/
theorem flushed_eq (c : Dev nD) (hr : ∀ b, (label m c b).toNat < 10) (t : Fin cfg0.N) (hf : (cfg0.win 4).flush t = true) :
    (dats m 0 c).flushed 4 t = ((cfg0.win 4).blk t).view.read (Elt Ideal) (written m c) := by
  have h9 : t.val % 10 = 9 := (flush0_4 t).mp hf
  show (cfg0.win 4).cut (grid0.coords t) ((dats m 0 c).after 4 t) = _
  rw [after0_4]
  funext y
  obtain ⟨b, e, rfl⟩ : ∃ (b e : Fin 1024), y = ix2 b e := ⟨y 0, y 1, eq_ix2 y⟩
  rw [View.read_apply]
  show outsAt0 m c t.val t.isLt (ix2 b e) = written m c (((cfg0.win 4).blk t).view.emb (ix2 b e))
  rw [tile_done m c hr t h9 b e]
  congr 1
  funext a
  apply Fin.ext
  match a with
  | ⟨0, _⟩ => show b.val = win0_4.index t 0 * 1024 + 1 * b.val; rw [(index_o t).1]; omega
  | ⟨1, _⟩ => show t.val / 10 * 1024 + e.val = win0_4.index t 1 * 1024 + 1 * e.val; rw [(index_o t).2]; omega

/-- An index of the array is in point t's tile iff each coordinate is in the tile's range on its axis. -/
theorem mem_tile (t : Fin cfg0.N) (i : S1024x2048.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3).slice (win0_4.rect t)).set ↔ _
  rw [View.set_slice_whole, Rect.mem_set_unit]
  exact Iff.rfl

/-- Every feature lies in one of the two tiles, each of which is written back. -/
theorem covered (i : S1024x2048.Idx) : ∃ t : Fin cfg0.N, (cfg0.win 4).flush t = true ∧ i ∈ ((cfg0.win 4).blk t).view.set := by
  have hi0 : (i 0).val < 1024 := (i 0).isLt
  have hi1 : (i 1).val < 2048 := (i 1).isLt
  have hN : cfg0.N = 20 := N_0
  refine ⟨⟨(i 1).val / 1024 * 10 + 9, by rw [hN]; omega⟩, (flush0_4 _).mpr (by show ((i 1).val / 1024 * 10 + 9) % 10 = 9; omega), ?_⟩
  rw [mem_tile]
  intro a
  match a with
  | ⟨0, _⟩ =>
    show win0_4.index _ 0 * 1024 ≤ (i 0).val ∧ (i 0).val < win0_4.index _ 0 * 1024 + 1024
    rw [(index_o _).1]; omega
  | ⟨1, _⟩ =>
    show win0_4.index _ 1 * 1024 ≤ (i 1).val ∧ (i 1).val < win0_4.index _ 1 * 1024 + 1024
    rw [(index_o _).2]
    show ((i 1).val / 1024 * 10 + 9) / 10 * 1024 ≤ (i 1).val ∧ (i 1).val < ((i 1).val / 1024 * 10 + 9) / 10 * 1024 + 1024
    omega

/-- The region's output array after the run. -/
theorem final (c : Dev nD) (hr : ∀ b, (label m c b).toNat < 10) : (dats m 0 c).arrAt 4 cfg0.N = written m c :=
  (dats m 0 c).arrAt_eq_of_cover 4 (written m c) (flushed_eq m c hr) (covered)

end Cert.KernelIdeal.Result

end
-- ==== Proof.KernelRun.lean ====
/-
  The kernel's run with its result named: the region's array viewed as 1024 × 16 × 128, the arguments unchanged.
-/
import proofs.«426643_j41781441856011_2_alg».proof.Proof.Result

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Running Cert.MixtureSpec

variable (m : (ℓ : Loc nD τ sig) → Buf (Elt Ideal) ℓ) (ρ : Dev nD → PrngReg)

/-- The one operation after the region views the written array as 1024 × 16 × 128. -/
theorem tail_eq (c : Dev nD) (hr : ∀ b, (label m c b).toNat < 10) :
    Pipeline.afterTail₀ cfgs (dats m) 0 (V0 m) [hostOps1] c main_v4
      = shapeCast S1024x16x128 (written m c) shapeCasts_S1024x2048_S1024x16x128 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3)
      = written m c :=
    (Pipeline.withArrays_arr spec0 launch0.win.arr_inj c _ _ 4).trans (final m c hr)
  rw [hw]
  rfl

/-- THE KERNEL'S RUN, READ: for labels in 0 … 9 every weakly fair execution ends with the result at every sample's
    own expert, viewed as 1024 × 16 × 128, and the four arguments as launched. -/
theorem run (hr : ∀ c b, (label m c b).toNat < 10) :
    θ_run defs (onTc (τ := τ) (main (F := Ideal))) ⟨m, fun _ => 0, ρ⟩ fun r => ∀ c : Dev nD,
      r.2.mem ((c.tc : Thread nD τ).loc main_v4) = shapeCast S1024x16x128 (written m c) shapeCasts_S1024x2048_S1024x16x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Result

end
-- ==== Proof.Reference.lean ====
/-
  What the reference computes, read at an index.

  It first builds the table of all ten experts, samps[k, b, f] = (∑ d, L[k, f, d] · z[b, d]) + mu[k, f], and then
  gathers, for every sample b, the row at the start index (label(b), b): the label with 10 added if negative, both
  components brought into range as the gather does.  For a label in 0 … 9 neither adjustment changes it, so the
  row read is that of the sample's own expert, and the product under the sum is the kernel's with its factors
  exchanged.
-/
import proofs.«426643_j41781441856011_2_alg».proof.Proof.Gen.ReferenceIdeal.Read
import proofs.«426643_j41781441856011_2_alg».proof.Proof.Spec
import Idealize.ShloMosaic.Lib.StableHlo.Predicate

noncomputable section

open scoped BigOperators

namespace Cert.ReferenceIdeal.Table

open Idealize.ShloMosaic Idealize.ShloMosaic.ValueIdx
open Cert.ReferenceIdeal Cert.ReferenceIdeal.Gen Cert.ReferenceIdeal.Read Cert.MixtureSpec

/-- An entry of the table of all ten experts. -/
theorem table_apply (x0 : S1024x2048.Idx → EReal) (x1 : S10x2048.Idx → EReal) (x2 : S10x2048x2048.Idx → EReal)
    (k : Fin 10) (b : Fin 1024) (f : Fin 2048) :
    val_main_v4 (F := Ideal) x0 x1 x2 (ix3 k b f) = expert x0 x1 x2 k b f := by
  rw [val_main_v4_apply, val_main_v1_apply, val_main_v0_apply, val_main_v3_apply, val_main_v2_apply]
  unfold expert
  have e1 : ∀ d : Fin 2048, lidx_main_v0 (idx_main_v1 (ix3 k b f)) d = ix3 k f d := fun d => funext fun a => by
    match a with
    | ⟨0, _⟩ => rfl
    | ⟨1, _⟩ => rfl
    | ⟨2, _⟩ => rfl
  have e2 : ∀ d : Fin 2048, ridx_main_v0 (idx_main_v1 (ix3 k b f)) d = ix2 b d := fun d => funext fun a => by
    match a with
    | ⟨0, _⟩ => rfl
    | ⟨1, _⟩ => rfl
  have e3 : idx_main_v2 (idx_main_v3 (ix3 k b f)) = ix2 k f := funext fun a => by
    match a with
    | ⟨0, _⟩ => rfl
    | ⟨1, _⟩ => rfl
  simp only [e1, e2, e3]
  show (∑ d : Fin 2048, x2 (ix3 k f d) * x0 (ix2 b d)) + x1 (ix2 k f) = _
  congr 1
  exact Finset.sum_congr rfl fun d _ => mul_comm _ _

/-- The gather reads the table at the start index, each component signed and brought into its axis, and at the
    feature the result index names. -/
theorem gather_at (X : S10x1024x2048.Idx → EReal) (idx : IVec S1024x2 32) (b : Fin 1024) (f : Fin 2048) :
    Host.gather gather_S10x1024x2048_S1024x2_S1024x2048_1_01_n_n_01_1_112048 X idx (ix2 b f)
      = X (ix3 (⟨min (idx (ix2 b (0 : Fin 2))).toInt.toNat 9, by omega⟩ : Fin 10)
            (⟨min (idx (ix2 b (1 : Fin 2))).toInt.toNat 1023, by omega⟩ : Fin 1024) f) := by
  unfold Host.gather
  congr 1
  funext a
  refine Fin.ext ?_
  match a with
  | ⟨0, _⟩ =>
    show gather_S10x1024x2048_S1024x2_S1024x2048_1_01_n_n_01_1_112048.start (ix2 b f) idx 0 + gather_S10x1024x2048_S1024x2_S1024x2048_1_01_n_n_01_1_112048.batchCoord (ix2 b f) 0 + gather_S10x1024x2048_S1024x2_S1024x2048_1_01_n_n_01_1_112048.offCoord (ix2 b f) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S10x1024x2048_S1024x2_S1024x2048_1_01_n_n_01_1_112048.startIndexMap from by decide)]
    have hsi : gather_S10x1024x2048_S1024x2_S1024x2048_1_01_n_n_01_1_112048.siIdx (ix2 b f) ⟨List.idxOf (0 : Fin 3) gather_S10x1024x2048_S1024x2_S1024x2048_1_01_n_n_01_1_112048.startIndexMap,
        List.idxOf_lt_length_iff.2 (by decide)⟩ = ix2 b (0 : Fin 2) := by
      funext b'; refine Fin.ext ?_
      match b' with
      | ⟨0, _⟩ => rfl
      | ⟨1, _⟩ => rfl
    rw [hsi]
    rfl
  | ⟨1, _⟩ =>
    show gather_S10x1024x2048_S1024x2_S1024x2048_1_01_n_n_01_1_112048.start (ix2 b f) idx 1 + gather_S10x1024x2048_S1024x2_S1024x2048_1_01_n_n_01_1_112048.batchCoord (ix2 b f) 1 + gather_S10x1024x2048_S1024x2_S1024x2048_1_01_n_n_01_1_112048.offCoord (ix2 b f) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S10x1024x2048_S1024x2_S1024x2048_1_01_n_n_01_1_112048.startIndexMap from by decide)]
    have hsi : gather_S10x1024x2048_S1024x2_S1024x2048_1_01_n_n_01_1_112048.siIdx (ix2 b f) ⟨List.idxOf (1 : Fin 3) gather_S10x1024x2048_S1024x2_S1024x2048_1_01_n_n_01_1_112048.startIndexMap,
        List.idxOf_lt_length_iff.2 (by decide)⟩ = ix2 b (1 : Fin 2) := by
      funext b'; refine Fin.ext ?_
      match b' with
      | ⟨0, _⟩ => rfl
      | ⟨1, _⟩ => rfl
    rw [hsi]
    rfl
  | ⟨2, _⟩ =>
    show gather_S10x1024x2048_S1024x2_S1024x2048_1_01_n_n_01_1_112048.start (ix2 b f) idx 2 + gather_S10x1024x2048_S1024x2_S1024x2048_1_01_n_n_01_1_112048.batchCoord (ix2 b f) 2 + gather_S10x1024x2048_S1024x2_S1024x2048_1_01_n_n_01_1_112048.offCoord (ix2 b f) 2 = f.val
    rw [GatherDims.batchCoord_eq_zero _ _ _ List.not_mem_nil]
    unfold GatherDims.start
    rw [dif_neg (show ¬(2 : Fin 3) ∈ gather_S10x1024x2048_S1024x2_S1024x2048_1_01_n_n_01_1_112048.startIndexMap from by decide)]
    unfold GatherDims.offCoord
    rw [dif_pos (show (2 : Fin 3) ∈ gather_S10x1024x2048_S1024x2_S1024x2048_1_01_n_n_01_1_112048.sKept from by decide)]
    simp only [Nat.add_zero, Nat.zero_add]
    rfl

/-- A word below 2³¹ is not below zero as a signed integer. -/
theorem not_negative {w : BitVec 32} (hw : w.toNat < 2 ^ 31) : IntOp.cmpi .slt w 0#32 = 0#1 :=
  eq_zero_of_ne_one fun h => by
    have := (StableHlo.Predicate.slt_iff_toNat hw (by decide)).mp h
    simp at this

/-- The first column of the start indices: the label itself, when it is in 0 … 9. -/
theorem start_expert (x3 : S1024.Idx → BitVec 32) (b : Fin 1024) (hb : (x3 (ix1 b)).toNat < 10) :
    val_main_v18 (F := Ideal) x3 (ix2 b (0 : Fin 2)) = x3 (ix1 b) := by
  unfold val_main_v18
  rw [concatenate_pair_apply_left (t := S1024x2) (s₁ := S1024x1) (s₂ := S1024x1) (1 : Fin 2) _ _ concatenates_S1024x1_S1024x1_S1024x2_d1 (ix2 b (0 : Fin 2)) (rfl : S1024x1.rank = S1024x2.rank) (ix2 b (0 : Fin 1))
    (fun b' => by match b' with
      | ⟨0, _⟩ => rfl
      | ⟨1, _⟩ => rfl)]
  rw [val_main_v16_apply, show idx_main_v16 (ix2 b (0 : Fin 1)) = ix1 b from funext fun a => by match a with | ⟨0, _⟩ => rfl]
  rw [val_main_v10_apply, val_main_v7_apply, val_main_v6_apply, val_main_c_apply, not_negative (by omega), select_zero]

/-- The second column: the sample's own number. -/
theorem start_sample (x3 : S1024.Idx → BitVec 32) (b : Fin 1024) :
    val_main_v18 (F := Ideal) x3 (ix2 b (1 : Fin 2)) = BitVec.ofNat 32 b.val := by
  unfold val_main_v18
  rw [concatenate_pair_apply_right (t := S1024x2) (s₁ := S1024x1) (s₂ := S1024x1) (1 : Fin 2) _ _ concatenates_S1024x1_S1024x1_S1024x2_d1 (ix2 b (1 : Fin 2)) (rfl : S1024x1.rank = S1024x2.rank) (rfl : S1024x1.rank = S1024x2.rank) (ix2 b (0 : Fin 1))
    (fun b' hb' => by match b' with
      | ⟨0, _⟩ => rfl
      | ⟨1, _⟩ => exact absurd rfl hb')
    rfl]
  rw [val_main_v17_apply, show idx_main_v17 (ix2 b (0 : Fin 1)) = ix1 b from funext fun a => by match a with | ⟨0, _⟩ => rfl]
  rw [val_main_v15_apply, val_main_v12_apply, val_main_v11_apply, val_main_c_1_apply, val_main_v5_apply]
  have hlt : (BitVec.ofNat 32 ((ix1 b : S1024.Idx) 0).val).toNat < 2 ^ 31 := by
    show (BitVec.ofNat 32 b.val).toNat < 2 ^ 31
    rw [BitVec.toNat_ofNat]; have := b.isLt; omega
  rw [not_negative hlt, select_zero]

/-- THE REFERENCE'S GATHERED ARRAY: for labels in 0 … 9, every sample at its own expert. -/
theorem gathered (x0 : S1024x2048.Idx → EReal) (x1 : S10x2048.Idx → EReal) (x2 : S10x2048x2048.Idx → EReal)
    (x3 : S1024.Idx → BitVec 32) (hr : ∀ b : Fin 1024, (x3 (ix1 b)).toNat < 10) :
    val_main_v19 (F := Ideal) x0 x1 x2 x3 = selected x0 x1 x2 x3 := by
  funext y
  obtain ⟨b, f, rfl⟩ : ∃ (b : Fin 1024) (f : Fin 2048), y = ix2 b f := ⟨y 0, y 1, eq_ix2 y⟩
  unfold val_main_v19
  rw [gather_at, table_apply]
  unfold selected
  show expert x0 x1 x2 _ _ f = expert x0 x1 x2 (pick (x3 (ix1 b))) b f
  congr 1
  · apply Fin.ext
    show min (val_main_v18 (F := Ideal) x3 (ix2 b (0 : Fin 2))).toInt.toNat 9 = min (x3 (ix1 b)).toInt.toNat 9
    rw [start_expert x3 b (hr b)]
  · apply Fin.ext
    show min (val_main_v18 (F := Ideal) x3 (ix2 b (1 : Fin 2))).toInt.toNat 1023 = b.val
    rw [start_sample, StableHlo.Predicate.toInt_ofNat_small _ (by have := b.isLt; omega)]
    have := b.isLt
    simp only [Int.toNat_natCast]
    omega

end Cert.ReferenceIdeal.Table

end
-- ==== Proof.Range.lean ====
/-
  The labels' range, read out of the precondition.

  The precondition is a conjunction whose last two conjuncts say that every label w satisfies 0 ≤ w and w < 10 as
  signed 32-bit integers.  A word that is non-negative as a signed integer is its own unsigned value, so then
  w, read unsigned, is below 10.
-/
import proofs.«426643_j41781441856011_2_alg».proof.Pre_finite_inputs
import proofs.«426643_j41781441856011_2_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Range

open Idealize.ShloMosaic Idealize.ShloMosaic.ValueIdx Cert.Pre_finite_inputs Cert.Pre_finite_inputs.Gen

instance : Subsingleton S_.Idx := ⟨fun a b => funext fun d => d.elim0⟩

/-- A word that is at least 0 and below 10 as a signed integer is below 10 as an unsigned one. -/
theorem small_of_signed {w : BitVec 32} (h0 : IntOp.cmpi .sge w 0#32 = 1#1) (h1 : IntOp.cmpi .slt w 10#32 = 1#1) :
    w.toNat < 10 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e10 : (10#32 : BitVec 32).toInt = 10 := by decide
  rw [e0] at h0
  rw [e10] at h1
  rw [BitVec.toInt_eq_toNat_cond] at h0 h1
  have := w.isLt
  split at h0 <;> omega

/-- Under the precondition every label is below 10. -/
theorem labels_small {F : FTy → Type} [FloatOps F] (a0 : FVec F S1024x2048 .f32) (a1 : FVec F S10x2048 .f32)
    (a2 : FVec F S10x2048x2048 .f32) (a3 : IVec S1024 32) (h : fn (F := F) a0 a1 a2 a3 = fun _ => 1#1) (b : Fin 1024) :
    (a3 (ix1 b)).toNat < 10 := by
  have h0 := congrFun h ix0
  dsimp only [fn, fn_part1] at h0
  change IntOp.andi _ _ = 1#1 at h0
  obtain ⟨hrest, hlt⟩ := IntOp.andi_eq_one.mp h0
  change IntOp.andi _ _ = 1#1 at hrest
  obtain ⟨-, hge⟩ := IntOp.andi_eq_one.mp hrest
  have g0 := Host.reduce_andi_all _ _ _ _ ix0 hge (ix1 b)
  have g1 := Host.reduce_andi_all _ _ _ _ ix0 hlt (ix1 b)
  exact small_of_signed g0 g1

end Cert.Pre_finite_inputs.Range

end
-- ==== Proof.lean ====
/-
  The certificate's claim for the mixture-of-experts kernel against its gather reference.

  Kernel: for every output-feature tile and every expert k in turn, add weight(label, k) · (z · L[k]ᵀ + mu[k]) to
  a total reset at k = 0.  Reference: compute all ten z · L[k]ᵀ + mu[k] and read, per sample, the row its label
  selects.  Under the precondition every label lies in 0 … 9 (the evident domain of an index into the ten experts),
  and then both results are, at sample b and feature f, expert label(b) evaluated at (b, f):
    · the kernel's running total is 0 until k reaches the label and that expert's value from then on, since
      0 · x = 0, 1 · x = x and 0 + x = x on the extended reals (no finiteness is needed);
    · the reference's start index is the label itself, neither wrapped nor clamped, and its product under the sum
      is the kernel's with the factors exchanged.
  The three frames are the generated ones (the reference's is its generated run with the result dropped); the ideal
  pass rewrote nothing, so the idealization claim is trivial.
-/
import proofs.«426643_j41781441856011_2_alg».proof.Defs
import proofs.«426643_j41781441856011_2_alg».proof.Proof.Gen.Kernel
import proofs.«426643_j41781441856011_2_alg».proof.Proof.Gen.Kernel.Skeleton
import proofs.«426643_j41781441856011_2_alg».proof.Proof.Gen.Kernel.Launch
import proofs.«426643_j41781441856011_2_alg».proof.Proof.Gen.Kernel.Points
import proofs.«426643_j41781441856011_2_alg».proof.Proof.Gen.Kernel.Frame
import proofs.«426643_j41781441856011_2_alg».proof.Proof.Gen.KernelIdeal
import proofs.«426643_j41781441856011_2_alg».proof.Proof.Gen.KernelIdeal.Skeleton
import proofs.«426643_j41781441856011_2_alg».proof.Proof.Gen.KernelIdeal.Launch
import proofs.«426643_j41781441856011_2_alg».proof.Proof.Gen.KernelIdeal.Points
import proofs.«426643_j41781441856011_2_alg».proof.Proof.Gen.KernelIdeal.Frame
import proofs.«426643_j41781441856011_2_alg».proof.Proof.Gen.ReferenceIdeal
import proofs.«426643_j41781441856011_2_alg».proof.Proof.Gen.Pre_finite_inputs
import proofs.«426643_j41781441856011_2_alg».proof.Proof.Gen.ReferenceIdeal.Run
import proofs.«426643_j41781441856011_2_alg».proof.Proof.Gen.ReferenceIdeal.Read
import proofs.«426643_j41781441856011_2_alg».proof.Proof.KernelRun
import proofs.«426643_j41781441856011_2_alg».proof.Proof.Reference
import proofs.«426643_j41781441856011_2_alg».proof.Proof.Range
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, element by element, with every sample's own expert. -/
theorem algebraic : Cert.algebraic_KernelIdeal_ReferenceIdeal := by
  intro m ρ m' ρ' hpre hagree
  have hr : ∀ (c : Dev Cert.KernelIdeal.nD) (b : Fin 1024), (Cert.KernelIdeal.Running.label m c b).toNat < 10 :=
    fun c b => Cert.Pre_finite_inputs.Range.labels_small _ _ _ _ (hpre c) b
  refine ⟨_, Cert.KernelIdeal.Result.run m ρ hr, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  rw [e0, e1, e2, e3, Cert.ReferenceIdeal.Read.val_main_v20_eq]
  unfold Cert.ReferenceIdeal.Read.val_main_v20
  rw [Cert.ReferenceIdeal.Table.gathered _ _ _ _ (hr c)]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
